-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 66
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S100000x128, .f32⟩
  | .hbm, ⟨32, _⟩ => ⟨S640000x1, .i32⟩
  | .hbm, ⟨33, _⟩ => ⟨S100000x128, .f32⟩
  | .hbm, ⟨34, _⟩ => ⟨S_, .f32⟩
  | .hbm, ⟨35, _⟩ => ⟨S640000, .f32⟩
  | .hbm, ⟨36, _⟩ => ⟨S_, .f32⟩
  | .hbm, ⟨37, _⟩ => ⟨S100000, .f32⟩
  | .hbm, ⟨38, _⟩ => ⟨S640000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S_, .f32⟩
  | .hbm, ⟨51, _⟩ => ⟨S640000, .f32⟩
  | .hbm, ⟨52, _⟩ => ⟨S_, .f32⟩
  | .hbm, ⟨53, _⟩ => ⟨S100000, .f32⟩
  | .hbm, ⟨54, _⟩ => ⟨S640000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S_, .f32⟩
  | .hbm, ⟨55, _⟩ => ⟨S640000, .f32⟩
  | .hbm, ⟨56, _⟩ => ⟨S_, .f32⟩
  | .hbm, ⟨57, _⟩ => ⟨S100000, .f32⟩
  | .hbm, ⟨58, _⟩ => ⟨S640000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The layer's arithmetic, written once over plain coordinates.

  A node's output row is the sum of three affine maps of three feature rows: the node's own row through the root
  weight, and half of each neighbourhood mean (over incoming and over outgoing edges) through that direction's
  weight. With a feature matrix `a`, a 128 × 128 weight `w` and a bias `b`, one such map at (p, q) is

      (∑ k, a p k · w k q) + b q,

  and the output at (p, q) is  (root + ½ · incoming) + ½ · outgoing,  the additions in exactly this grouping.
  Both programs compute this expression with the same grouping and the same f32 word for ½, so nothing here
  needs a law of the extended reals beyond reading each operation at an index; ½ is kept as the word's value.
-/
import Idealize.ShloMosaic.PureOps.Ideal
import Idealize.ShloMosaic.Lib.ValueIdx

noncomputable section

namespace Cert.Epilogue

open Idealize.ShloMosaic Idealize.ShloMosaic.ValueIdx
open scoped BigOperators

/-- The weight ½ as both programs spell it: the value of the f32 word `0x3F000000`. -/
def half : EReal := Ideal.ofBits .f32 0x3F000000#32

/-- One affine map at (p, q): row `p` of `a` against column `q` of `w`, plus entry `q` of the bias. -/
def branch {R : Nat} (a : Fin R → Fin 128 → EReal) (w : Fin 128 → Fin 128 → EReal) (b : Fin 128 → EReal)
    (p : Fin R) (q : Fin 128) : EReal :=
  (∑ k : Fin 128, a p k * w k q) + b q

/-- The output at (p, q): the root map, plus half the incoming-mean map, plus half the outgoing-mean map. -/
def out {R : Nat} (x s t : Fin R → Fin 128 → EReal) (wl ws wt : Fin 128 → Fin 128 → EReal)
    (bl bs bt : Fin 128 → EReal) (p : Fin R) (q : Fin 128) : EReal :=
  (branch x wl bl p q + half * branch s ws bs p q) + half * branch t wt bt p q

/-- The whole output array as one function of the node features `X`, the two mean arrays `S` and `T`, the three
    weights and the three biases, index by index. -/
def layer (X S T : (⟨2, ![100000, 128]⟩ : Shape).Idx → EReal) (WL WS WT : (⟨2, ![128, 128]⟩ : Shape).Idx → EReal)
    (BL BS BT : (⟨1, ![128]⟩ : Shape).Idx → EReal) : (⟨2, ![100000, 128]⟩ : Shape).Idx → EReal :=
  fun i => out (fun p k => X (ix2 p k)) (fun p k => S (ix2 p k)) (fun p k => T (ix2 p k))
    (fun k q => WL (ix2 k q)) (fun k q => WS (ix2 k q)) (fun k q => WT (ix2 k q))
    (fun q => BL (ix1 q)) (fun q => BS (ix1 q)) (fun q => BT (ix1 q)) (i 0) (i 1)

theorem layer_apply (X S T : (⟨2, ![100000, 128]⟩ : Shape).Idx → EReal) (WL WS WT : (⟨2, ![128, 128]⟩ : Shape).Idx → EReal)
    (BL BS BT : (⟨1, ![128]⟩ : Shape).Idx → EReal) (p : Fin 100000) (q : Fin 128) :
    layer X S T WL WS WT BL BS BT (ix2 p q)
      = out (fun p k => X (ix2 p k)) (fun p k => S (ix2 p k)) (fun p k => T (ix2 p k))
          (fun k q => WL (ix2 k q)) (fun k q => WS (ix2 k q)) (fun k q => WT (ix2 k q))
          (fun q => BL (ix1 q)) (fun q => BS (ix1 q)) (fun q => BT (ix1 q)) p q := rfl

end Cert.Epilogue

end
-- ==== Proof.Payload.lean ====
/-
  The kernel body's one stored value, read at an index.

  The body loads a 5000-row block of each of the three feature arrays, the three 128 × 128 weights and the three
  biases (each as one row), forms three block products into zero accumulators, adds each bias row to every row of
  its product, and stores  (root + ½ · incoming) + ½ · outgoing.  At the ideal values a change of float format is
  the identity and a block product into zero is the plain sum over the contracted axis, so at row `r`, column `q`
  of the block the stored value is the layer's expression of the loaded blocks.
-/
import proofs.«132252_j25829933318545_1_alg».proof.Proof.Gen.KernelIdeal.Skeleton
import proofs.«132252_j25829933318545_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-! ## The block product's operand indices: (r, q) and k give (r, k) on the left, (k, q) on the right -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at (r, q): row `r` of the left block against column `q` of the weight. -/
theorem product_at {φ₁ φ₂ : FTy} (a : FVec Ideal S5000x128 φ₁) (w : FVec Ideal S128x128 φ₂) (r : Fin 5000) (q : Fin 128) :
    matmul dot_S5000x128_S128x128_S5000x128_1_0_0_1_n_n none a w (constant S5000x128 .f32 0x00000000#32) (ix2 r q)
      = ∑ k : Fin 128, a (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- THE STORED VALUE at (r, q) is the layer's expression of the loaded blocks. -/
theorem stored_at (x s t : Vec Ideal S5000x128 .f32) (wl ws wt : Vec Ideal S128x128 .f32) (bl bs bt : Vec Ideal S1x128 .f32)
    (r : Fin 5000) (q : Fin 128) :
    k0_pay1 (F := Ideal) x s t wl ws wt bl bs bt (ix2 r q)
      = Cert.Epilogue.out (fun p k => x (ix2 p k)) (fun p k => s (ix2 p k)) (fun p k => t (ix2 p k))
          (fun k q => wl (ix2 k q)) (fun k q => ws (ix2 k q)) (fun k q => wt (ix2 k q))
          (fun q => bl (ix2 (0 : Fin 1) q)) (fun q => bs (ix2 (0 : Fin 1) q)) (fun q => bt (ix2 (0 : Fin 1) q)) r q := by
  unfold k0_pay1 Cert.Epilogue.out Cert.Epilogue.branch Cert.Epilogue.half
  simp only [addf_apply, mulf_apply, broadcast_apply, product_at, truncf_apply, shapeCast_self, broadcastTo_1b_ab_apply]
  rfl

end Cert.KernelIdeal.Payload

end
-- ==== Proof.HostStages.lean ====
/-
  What the kernel's host operations hand to the region.

  Before the launch the kernel's entry point computes, on the host, the two neighbourhood means — gather the source
  rows, add them into their destination rows, divide by the destination's edge count raised to at least one — and
  casts each bias to one row. The reference computes the two means with the very same operations on the same
  arguments, so each mean array the region finds is the reference's stage of that name, by unfolding both.
-/
import proofs.«132252_j25829933318545_1_alg».proof.Proof.Gen.KernelIdeal.Frame
import proofs.«132252_j25829933318545_1_alg».proof.Proof.Gen.ReferenceIdeal.Read
import Idealize.ShloMosaic.Lib.StableHlo.Run

noncomputable section

namespace Cert.KernelIdeal.HostStages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
/-- The mean over incoming edges, as the region finds it, is the reference's mean over incoming edges. -/
theorem meanIn (c : Dev nD) :
    (V m c main_v29 : S100000x128.Idx → EReal)
      = Cert.ReferenceIdeal.Read.val_main_v22 (F := Ideal) (m ((c : Thread nD τ).loc main_arg0)) (m ((c : Thread nD τ).loc main_arg1)) := by
  dsimp only [V, hostOps0]
  after_results_simp
  rfl

set_option maxRecDepth 8192 in
/-- The mean over outgoing edges, as the region finds it, is the reference's mean over outgoing edges. -/
theorem meanOut (c : Dev nD) :
    (V m c main_v41 : S100000x128.Idx → EReal)
      = Cert.ReferenceIdeal.Read.val_main_v45 (F := Ideal) (m ((c : Thread nD τ).loc main_arg0)) (m ((c : Thread nD τ).loc main_arg1)) := by
  dsimp only [V, hostOps0]
  after_results_simp
  rfl

/-- The root bias as the region finds it: the bias cast to one row. -/
theorem biasRoot (c : Dev nD) :
    (V m c main_v42 : S1x128.Idx → EReal) = shapeCast S1x128 (m ((c : Thread nD τ).loc main_arg3)) shapeCasts_S128_S1x128 := by
  dsimp only [V, hostOps0]
  after_results_simp
  rfl

/-- The incoming direction's bias as the region finds it. -/
theorem biasIn (c : Dev nD) :
    (V m c main_v43 : S1x128.Idx → EReal) = shapeCast S1x128 (m ((c : Thread nD τ).loc main_arg5)) shapeCasts_S128_S1x128 := by
  dsimp only [V, hostOps0]
  after_results_simp
  rfl

/-- The outgoing direction's bias as the region finds it. -/
theorem biasOut (c : Dev nD) :
    (V m c main_v44 : S1x128.Idx → EReal) = shapeCast S1x128 (m ((c : Thread nD τ).loc main_arg7)) shapeCasts_S128_S1x128 := by
  dsimp only [V, hostOps0]
  after_results_simp
  rfl

end Cert.KernelIdeal.HostStages

end
-- ==== Proof.Locality.lean ====
/-
  Two remarks on the layer's expression.

  Its output at (p, q) reads only row p of each feature matrix, column q of each weight and entry q of each bias. So
  two sets of operands that agree there — a block of rows against the whole arrays, say, row `p` of the block being
  row `p'` of the array — give the same output at (p, q) and (p', q): `out_congr`.

  And a bias may be handed over as a one-row array (the kernel's entry point casts each bias [128] to [1, 128]
  before the launch): `layerRows` is the layer's function of such rows, and of the one-row casts of three biases it
  is the layer's function of the biases themselves.
-/
import proofs.«132252_j25829933318545_1_alg».proof.Proof.Spec
import Idealize.ShloMosaic.Lib.ValueLayout

noncomputable section

namespace Cert.Epilogue

open Idealize.ShloMosaic Idealize.ShloMosaic.ValueIdx
open scoped BigOperators

theorem out_congr {R R' : Nat} (x s t : Fin R → Fin 128 → EReal) (wl ws wt : Fin 128 → Fin 128 → EReal)
    (bl bs bt : Fin 128 → EReal) (x' s' t' : Fin R' → Fin 128 → EReal) (wl' ws' wt' : Fin 128 → Fin 128 → EReal)
    (bl' bs' bt' : Fin 128 → EReal) (p : Fin R) (p' : Fin R') (q : Fin 128)
    (hx : ∀ k, x p k = x' p' k) (hs : ∀ k, s p k = s' p' k) (ht : ∀ k, t p k = t' p' k)
    (hwl : ∀ k, wl k q = wl' k q) (hws : ∀ k, ws k q = ws' k q) (hwt : ∀ k, wt k q = wt' k q)
    (hbl : bl q = bl' q) (hbs : bs q = bs' q) (hbt : bt q = bt' q) :
    out x s t wl ws wt bl bs bt p q = out x' s' t' wl' ws' wt' bl' bs' bt' p' q := by
  unfold out branch
  simp only [hx, hs, ht, hwl, hws, hwt, hbl, hbs, hbt]

/-- The layer's function with each bias given as a one-row array. -/
def layerRows (X S T : (⟨2, ![100000, 128]⟩ : Shape).Idx → EReal) (WL WS WT : (⟨2, ![128, 128]⟩ : Shape).Idx → EReal)
    (BL BS BT : (⟨2, ![1, 128]⟩ : Shape).Idx → EReal) : (⟨2, ![100000, 128]⟩ : Shape).Idx → EReal :=
  fun i => out (fun p k => X (ix2 p k)) (fun p k => S (ix2 p k)) (fun p k => T (ix2 p k))
    (fun k q => WL (ix2 k q)) (fun k q => WS (ix2 k q)) (fun k q => WT (ix2 k q))
    (fun q => BL (ix2 (0 : Fin 1) q)) (fun q => BS (ix2 (0 : Fin 1) q)) (fun q => BT (ix2 (0 : Fin 1) q)) (i 0) (i 1)

theorem layerRows_apply (X S T : (⟨2, ![100000, 128]⟩ : Shape).Idx → EReal) (WL WS WT : (⟨2, ![128, 128]⟩ : Shape).Idx → EReal)
    (BL BS BT : (⟨2, ![1, 128]⟩ : Shape).Idx → EReal) (p : Fin 100000) (q : Fin 128) :
    layerRows X S T WL WS WT BL BS BT (ix2 p q)
      = out (fun p k => X (ix2 p k)) (fun p k => S (ix2 p k)) (fun p k => T (ix2 p k))
          (fun k q => WL (ix2 k q)) (fun k q => WS (ix2 k q)) (fun k q => WT (ix2 k q))
          (fun q => BL (ix2 (0 : Fin 1) q)) (fun q => BS (ix2 (0 : Fin 1) q)) (fun q => BT (ix2 (0 : Fin 1) q)) p q := rfl

/-- Equal operands, equal function: the nine operands replaced one for one. -/
theorem layerRows_congr {X X' S S' T T' : (⟨2, ![100000, 128]⟩ : Shape).Idx → EReal}
    {WL WL' WS WS' WT WT' : (⟨2, ![128, 128]⟩ : Shape).Idx → EReal} {BL BL' BS BS' BT BT' : (⟨2, ![1, 128]⟩ : Shape).Idx → EReal}
    (hX : X = X') (hS : S = S') (hT : T = T') (hWL : WL = WL') (hWS : WS = WS') (hWT : WT = WT')
    (hBL : BL = BL') (hBS : BS = BS') (hBT : BT = BT') :
    layerRows X S T WL WS WT BL BS BT = layerRows X' S' T' WL' WS' WT' BL' BS' BT' := by
  subst hX hS hT hWL hWS hWT hBL hBS hBT
  rfl

/-- Of the one-row casts of three biases, `layerRows` is `layer` of the biases. -/
theorem layerRows_shapeCast (X S T : (⟨2, ![100000, 128]⟩ : Shape).Idx → EReal) (WL WS WT : (⟨2, ![128, 128]⟩ : Shape).Idx → EReal)
    (BL BS BT : (⟨1, ![128]⟩ : Shape).Idx → EReal) (h : (⟨1, ![128]⟩ : Shape).ShapeCasts ⟨2, ![1, 128]⟩) :
    layerRows X S T WL WS WT (shapeCast ⟨2, ![1, 128]⟩ BL h) (shapeCast ⟨2, ![1, 128]⟩ BS h) (shapeCast ⟨2, ![1, 128]⟩ BT h)
      = layer X S T WL WS WT BL BS BT := by
  funext i
  unfold layerRows layer
  simp only [shapeCast_a_1a_apply]

end Cert.Epilogue

end
-- ==== Proof.Whole.lean ====
/-
  From blocks to the array: the kernel's result is the layer's function of its arguments.

  The grid has twenty points. At point `t` the three feature windows and the output window hold rows
  5000 t … 5000 t + 4999 of their arrays; the weight windows hold the whole weights and the bias windows the one row
  each bias was cast to. The body's stored value at (r, q) is the layer's expression of these blocks
  (Proof/Payload.lean), which reads only row `r` of the feature blocks (Proof/Locality.lean); so what point `t` writes
  back is block `t` of ONE whole-array function, and since the twenty blocks tile the output that function is what the
  array holds after the run. Everything up to there is stated for arbitrary contents of the nine arrays, so that how
  the two mean arrays were computed is never opened; only at the end are they named as the reference's own stages.
-/
import proofs.«132252_j25829933318545_1_alg».proof.Proof.Gen.KernelIdeal.Value
import proofs.«132252_j25829933318545_1_alg».proof.Proof.Payload
import proofs.«132252_j25829933318545_1_alg».proof.Proof.HostStages
import proofs.«132252_j25829933318545_1_alg».proof.Proof.Locality
import Idealize.ShloMosaic.Lib.Pipeline.Value
import Idealize.ShloMosaic.Lib.ValueIdx
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the twenty grid points: the three feature windows and the output move one
    block of rows per point; the weights and the bias rows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each window's block of an array, read where the output's rectangle says

  Stated for ANY array contents, so that nothing about how the region's arrays were computed is ever opened. -/

/-- Row `r` of window 0's block at point `t` is row `5000 t + r` of its array. -/
theorem read_rows0 (A : S100000x128.Idx → EReal) (t : Fin cfg0.N) (r : Fin 5000) (k : Fin 128) (P : Fin 100000) (hP : P.val = t.val * 5000 + r.val) :
    (((cfg0.win 0).blk t).view.read (Elt Ideal) A) (ix2 r k) = A (ix2 P k) := by
  obtain ⟨e0, e1⟩ := (idx_facts t).1
  have hidx : ((cfg0.win 0).blk t).view.emb (ix2 r k) = ix2 P k := funext fun a => Fin.ext (by
    match a with
    | ⟨0, _⟩ => show win0_0.index t (0 : Fin 2) * 5000 + 1 * r.val = P.val; rw [e0, hP]; omega
    | ⟨1, _⟩ => show win0_0.index t (1 : Fin 2) * 128 + 1 * k.val = k.val; rw [e1]; omega)
  show A (((cfg0.win 0).blk t).view.emb (ix2 r k)) = _
  rw [hidx]

/-- Row `r` of window 1's block at point `t` is row `5000 t + r` of its array. -/
theorem read_rows1 (A : S100000x128.Idx → EReal) (t : Fin cfg0.N) (r : Fin 5000) (k : Fin 128) (P : Fin 100000) (hP : P.val = t.val * 5000 + r.val) :
    (((cfg0.win 1).blk t).view.read (Elt Ideal) A) (ix2 r k) = A (ix2 P k) := by
  obtain ⟨e0, e1⟩ := (idx_facts t).2.1
  have hidx : ((cfg0.win 1).blk t).view.emb (ix2 r k) = ix2 P k := funext fun a => Fin.ext (by
    match a with
    | ⟨0, _⟩ => show win0_1.index t (0 : Fin 2) * 5000 + 1 * r.val = P.val; rw [e0, hP]; omega
    | ⟨1, _⟩ => show win0_1.index t (1 : Fin 2) * 128 + 1 * k.val = k.val; rw [e1]; omega)
  show A (((cfg0.win 1).blk t).view.emb (ix2 r k)) = _
  rw [hidx]

/-- Row `r` of window 2's block at point `t` is row `5000 t + r` of its array. -/
theorem read_rows2 (A : S100000x128.Idx → EReal) (t : Fin cfg0.N) (r : Fin 5000) (k : Fin 128) (P : Fin 100000) (hP : P.val = t.val * 5000 + r.val) :
    (((cfg0.win 2).blk t).view.read (Elt Ideal) A) (ix2 r k) = A (ix2 P k) := by
  obtain ⟨e0, e1⟩ := (idx_facts t).2.2.1
  have hidx : ((cfg0.win 2).blk t).view.emb (ix2 r k) = ix2 P k := funext fun a => Fin.ext (by
    match a with
    | ⟨0, _⟩ => show win0_2.index t (0 : Fin 2) * 5000 + 1 * r.val = P.val; rw [e0, hP]; omega
    | ⟨1, _⟩ => show win0_2.index t (1 : Fin 2) * 128 + 1 * k.val = k.val; rw [e1]; omega)
  show A (((cfg0.win 2).blk t).view.emb (ix2 r k)) = _
  rw [hidx]

/-- Window 3's block is its whole array, at every point. -/
theorem read_weight3 (W : S128x128.Idx → EReal) (t : Fin cfg0.N) (k q : Fin 128) :
    (((cfg0.win 3).blk t).view.read (Elt Ideal) W) (ix2 k q) = W (ix2 k q) := by
  obtain ⟨e0, e1⟩ := (idx_facts t).2.2.2.1
  have hidx : ((cfg0.win 3).blk t).view.emb (ix2 k q) = ix2 k q := funext fun a => Fin.ext (by
    match a with
    | ⟨0, _⟩ => show win0_3.index t (0 : Fin 2) * 128 + 1 * k.val = k.val; rw [e0]; omega
    | ⟨1, _⟩ => show win0_3.index t (1 : Fin 2) * 128 + 1 * q.val = q.val; rw [e1]; omega)
  show W (((cfg0.win 3).blk t).view.emb (ix2 k q)) = _
  rw [hidx]

/-- Window 5's block is its whole array, at every point. -/
theorem read_weight5 (W : S128x128.Idx → EReal) (t : Fin cfg0.N) (k q : Fin 128) :
    (((cfg0.win 5).blk t).view.read (Elt Ideal) W) (ix2 k q) = W (ix2 k q) := by
  obtain ⟨e0, e1⟩ := (idx_facts t).2.2.2.2.2.1
  have hidx : ((cfg0.win 5).blk t).view.emb (ix2 k q) = ix2 k q := funext fun a => Fin.ext (by
    match a with
    | ⟨0, _⟩ => show win0_5.index t (0 : Fin 2) * 128 + 1 * k.val = k.val; rw [e0]; omega
    | ⟨1, _⟩ => show win0_5.index t (1 : Fin 2) * 128 + 1 * q.val = q.val; rw [e1]; omega)
  show W (((cfg0.win 5).blk t).view.emb (ix2 k q)) = _
  rw [hidx]

/-- Window 7's block is its whole array, at every point. -/
theorem read_weight7 (W : S128x128.Idx → EReal) (t : Fin cfg0.N) (k q : Fin 128) :
    (((cfg0.win 7).blk t).view.read (Elt Ideal) W) (ix2 k q) = W (ix2 k q) := by
  obtain ⟨e0, e1⟩ := (idx_facts t).2.2.2.2.2.2.2.1
  have hidx : ((cfg0.win 7).blk t).view.emb (ix2 k q) = ix2 k q := funext fun a => Fin.ext (by
    match a with
    | ⟨0, _⟩ => show win0_7.index t (0 : Fin 2) * 128 + 1 * k.val = k.val; rw [e0]; omega
    | ⟨1, _⟩ => show win0_7.index t (1 : Fin 2) * 128 + 1 * q.val = q.val; rw [e1]; omega)
  show W (((cfg0.win 7).blk t).view.emb (ix2 k q)) = _
  rw [hidx]

/-- Window 4's block is its array's one row, at every point. -/
theorem read_row4 (B : S1x128.Idx → EReal) (t : Fin cfg0.N) (q : Fin 128) :
    (((cfg0.win 4).blk t).view.read (Elt Ideal) B) (ix2 (0 : Fin 1) q) = B (ix2 (0 : Fin 1) q) := by
  obtain ⟨e0, e1⟩ := (idx_facts t).2.2.2.2.1
  have hidx : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e0]
    | ⟨1, _⟩ => show win0_4.index t (1 : Fin 2) * 128 + 1 * q.val = q.val; rw [e1]; omega)
  show B (((cfg0.win 4).blk t).view.emb (ix2 (0 : Fin 1) q)) = _
  rw [hidx]

/-- Window 6's block is its array's one row, at every point. -/
theorem read_row6 (B : S1x128.Idx → EReal) (t : Fin cfg0.N) (q : Fin 128) :
    (((cfg0.win 6).blk t).view.read (Elt Ideal) B) (ix2 (0 : Fin 1) q) = B (ix2 (0 : Fin 1) q) := by
  obtain ⟨e0, e1⟩ := (idx_facts t).2.2.2.2.2.2.1
  have hidx : ((cfg0.win 6).blk t).view.emb (ix2 (0 : Fin 1) q) = ix2 (0 : Fin 1) q := funext fun a => Fin.ext (by
    match a with
    | ⟨0, _⟩ => show win0_6.index t (0 : Fin 2) * 1 + 1 * 0 = 0; rw [e0]
    | ⟨1, _⟩ => show win0_6.index t (1 : Fin 2) * 128 + 1 * q.val = q.val; rw [e1]; omega)
  show B (((cfg0.win 6).blk t).view.emb (ix2 (0 : Fin 1) q)) = _
  rw [hidx]

/-- Window 8's block is its array's one row, at every point. -/
theorem read_row8 (B : S1x128.Idx → EReal) (t : Fin cfg0.N) (q : Fin 128) :
    (((cfg0.win 8).blk t).view.read (Elt Ideal) B) (ix2 (0 : Fin 1) q) = B (ix2 (0 : Fin 1) q) := by
  obtain ⟨e0, e1⟩ := (idx_facts t).2.2.2.2.2.2.2.2.1
  have hidx : ((cfg0.win 8).blk t).view.emb (ix2 (0 : Fin 1) q) = ix2 (0 : Fin 1) q := funext fun a => Fin.ext (by
    match a with
    | ⟨0, _⟩ => show win0_8.index t (0 : Fin 2) * 1 + 1 * 0 = 0; rw [e0]
    | ⟨1, _⟩ => show win0_8.index t (1 : Fin 2) * 128 + 1 * q.val = q.val; rw [e1]; omega)
  show B (((cfg0.win 8).blk t).view.emb (ix2 (0 : Fin 1) q)) = _
  rw [hidx]

/-! ## What a point writes back, for any contents of the nine arrays -/

/-- At point `t` the stored value at (r, q) is the layer's function of the arrays at row `5000 t + r`, column `q`: the
    stored value is the layer's expression of the blocks, which reads only row `r` of the three feature blocks — row
    `5000 t + r` of their arrays. -/
theorem point_eq (A0 A1 A2 : S100000x128.Idx → EReal) (W3 W5 W7 : S128x128.Idx → EReal) (B4 B6 B8 : S1x128.Idx → EReal)
    (t : Fin cfg0.N) (r : Fin 5000) (q : Fin 128) (P : Fin 100000) (hP : P.val = t.val * 5000 + r.val) :
    k0_pay1 (F := Ideal)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) W3)
        (((cfg0.win 5).blk t).view.read (Elt Ideal) W5)
        (((cfg0.win 7).blk t).view.read (Elt Ideal) W7)
        (((cfg0.win 4).blk t).view.read (Elt Ideal) B4)
        (((cfg0.win 6).blk t).view.read (Elt Ideal) B6)
        (((cfg0.win 8).blk t).view.read (Elt Ideal) B8)
        (ix2 r q)
      = Cert.Epilogue.layerRows A0 A1 A2 W3 W5 W7 B4 B6 B8 (ix2 P q) := by
  refine (Payload.stored_at
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) W3)
        (((cfg0.win 5).blk t).view.read (Elt Ideal) W5)
        (((cfg0.win 7).blk t).view.read (Elt Ideal) W7)
        (((cfg0.win 4).blk t).view.read (Elt Ideal) B4)
        (((cfg0.win 6).blk t).view.read (Elt Ideal) B6)
        (((cfg0.win 8).blk t).view.read (Elt Ideal) B8)
        r q).trans ?_
  refine Eq.trans ?_ (Cert.Epilogue.layerRows_apply A0 A1 A2 W3 W5 W7 B4 B6 B8 P q).symm
  exact Cert.Epilogue.out_congr _ _ _ _ _ _ _ _ _ _ _ _ _ _ _ _ _ _ r P q
    (fun k => read_rows0 A0 t r k P hP) (fun k => read_rows1 A1 t r k P hP) (fun k => read_rows2 A2 t r k P hP)
    (fun k => read_weight3 W3 t k q) (fun k => read_weight5 W5 t k q) (fun k => read_weight7 W7 t k q)
    (read_row4 B4 t q) (read_row6 B6 t q) (read_row8 B8 t q)

/-- So what the body leaves for the output window at point `t`, cut to the block, is block `t` of the layer's function. -/
theorem written_is_block (A0 A1 A2 : S100000x128.Idx → EReal) (W3 W5 W7 : S128x128.Idx → EReal) (B4 B6 B8 : S1x128.Idx → EReal)
    (t : Fin cfg0.N) :
    (cfg0.win 9).cut (grid0.coords t) (k0_pay1 (F := Ideal)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) W3)
        (((cfg0.win 5).blk t).view.read (Elt Ideal) W5)
        (((cfg0.win 7).blk t).view.read (Elt Ideal) W7)
        (((cfg0.win 4).blk t).view.read (Elt Ideal) B4)
        (((cfg0.win 6).blk t).view.read (Elt Ideal) B6)
        (((cfg0.win 8).blk t).view.read (Elt Ideal) B8))
      = ((cfg0.win 9).blk t).view.read (Elt Ideal) (Cert.Epilogue.layerRows A0 A1 A2 W3 W5 W7 B4 B6 B8) := by
  obtain ⟨e0, e1⟩ := (idx_facts t).2.2.2.2.2.2.2.2.2
  have ht : t.val < 20 := lt_of_lt_of_eq t.isLt N_0
  funext j
  obtain ⟨r, q, rfl⟩ : ∃ (r : Fin 5000) (q : Fin 128), (j : S5000x128.Idx) = ix2 r q :=
    ⟨⟨(j 0).val, (j 0).isLt⟩, ⟨(j 1).val, (j 1).isLt⟩, funext fun a => by match a with | ⟨0, _⟩ => rfl | ⟨1, _⟩ => rfl⟩
  have hemb : ((cfg0.win 9).blk t).view.emb (ix2 r q) = ix2 (⟨t.val * 5000 + r.val, by omega⟩ : Fin 100000) q :=
    funext fun a => Fin.ext (by
      match a with
      | ⟨0, _⟩ => show win0_9.index t (0 : Fin 2) * 5000 + 1 * r.val = t.val * 5000 + r.val; rw [e0]; omega
      | ⟨1, _⟩ => show win0_9.index t (1 : Fin 2) * 128 + 1 * q.val = q.val; rw [e1]; omega)
  show k0_pay1 (F := Ideal)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) W3)
        (((cfg0.win 5).blk t).view.read (Elt Ideal) W5)
        (((cfg0.win 7).blk t).view.read (Elt Ideal) W7)
        (((cfg0.win 4).blk t).view.read (Elt Ideal) B4)
        (((cfg0.win 6).blk t).view.read (Elt Ideal) B6)
        (((cfg0.win 8).blk t).view.read (Elt Ideal) B8)
        (ix2 r q)
      = Cert.Epilogue.layerRows A0 A1 A2 W3 W5 W7 B4 B6 B8 (((cfg0.win 9).blk t).view.emb (ix2 r q))
  rw [hemb]
  exact point_eq A0 A1 A2 W3 W5 W7 B4 B6 B8 t r q _ rfl

/-! ## The kernel's result array -/

/-- The kernel's result array as ONE function of the nine arrays as the region finds them: the layer's function of
    the node features, the two mean arrays the host operations left, the three weights and the three bias rows. -/
abbrev result (c : Dev nD) : S100000x128.Idx → EReal :=
  Cert.Epilogue.layerRows (V m c (Pipeline.arrRef spec0 (0 : Fin cfg0.W))) (V m c (Pipeline.arrRef spec0 (1 : Fin cfg0.W))) (V m c (Pipeline.arrRef spec0 (2 : Fin cfg0.W)))
    (V m c (Pipeline.arrRef spec0 (3 : Fin cfg0.W))) (V m c (Pipeline.arrRef spec0 (5 : Fin cfg0.W))) (V m c (Pipeline.arrRef spec0 (7 : Fin cfg0.W)))
    (V m c (Pipeline.arrRef spec0 (4 : Fin cfg0.W))) (V m c (Pipeline.arrRef spec0 (6 : Fin cfg0.W))) (V m c (Pipeline.arrRef spec0 (8 : Fin cfg0.W)))

/-- WHAT POINT `t` WRITES BACK is block `t` of `result`. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz]
  simp only [View.ld_unit_zero (S := S5000x128) hz, View.ld_unit_zero (S := S128x128) hz, View.ld_unit_zero (S := S1x128) hz]
  unfold iblk
  exact written_is_block (V m c (Pipeline.arrRef spec0 (0 : Fin cfg0.W))) (V m c (Pipeline.arrRef spec0 (1 : Fin cfg0.W))) (V m c (Pipeline.arrRef spec0 (2 : Fin cfg0.W)))
    (V m c (Pipeline.arrRef spec0 (3 : Fin cfg0.W))) (V m c (Pipeline.arrRef spec0 (5 : Fin cfg0.W))) (V m c (Pipeline.arrRef spec0 (7 : Fin cfg0.W)))
    (V m c (Pipeline.arrRef spec0 (4 : Fin cfg0.W))) (V m c (Pipeline.arrRef spec0 (6 : Fin cfg0.W))) (V m c (Pipeline.arrRef spec0 (8 : Fin cfg0.W))) t

/-- An index of the array is in point `t`'s block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v45).slice (win0_9.rect t)).set ↔ _
  rw [View.set_slice_whole, Rect.mem_set_unit]
  exact Iff.rfl

/-- Every row of the array lies in some point's block: row `p` in the block of point `p / 5000`. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : (i 0).val / 5000 < cfg0.N := by show (i 0).val / 5000 < grid0.N; rw [N_0]; omega
  obtain ⟨e0, e1⟩ := (idx_facts ⟨(i 0).val / 5000, hN⟩).2.2.2.2.2.2.2.2.2
  refine ⟨⟨(i 0).val / 5000, hN⟩, flush0_9 _, ?_⟩
  rw [mem_blk]
  intro a
  match a with
  | ⟨0, _⟩ =>
    show win0_9.index ⟨(i 0).val / 5000, hN⟩ (0 : Fin 2) * 5000 ≤ (i 0).val ∧ (i 0).val < win0_9.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, hN⟩ (1 : Fin 2) * 128 ≤ (i 1).val ∧ (i 1).val < win0_9.index ⟨(i 0).val / 5000, hN⟩ (1 : Fin 2) * 128 + 128
    rw [e1]
    omega

/-- THE ARRAY after the run is `result`: the twenty blocks tile it. -/
theorem final (c : Dev nD) : (dats m 0 c).arrAt 9 cfg0.N = result m c :=
  (dats m 0 c).arrAt_eq_of_cover 9 (result m c) (fun t _ => flushed_eq m c t) cover

/-- The arrays the region finds, named: the arguments as launched, the two means as the reference's own mean stages,
    each bias row as the bias cast to one row. So `result` is the layer's function of the arguments. -/
theorem result_eq (c : Dev nD) :
    result m c = Cert.Epilogue.layer (m ((c : Thread nD τ).loc main_arg0))
        (Cert.ReferenceIdeal.Read.val_main_v22 (F := Ideal) (m ((c : Thread nD τ).loc main_arg0)) (m ((c : Thread nD τ).loc main_arg1)))
        (Cert.ReferenceIdeal.Read.val_main_v45 (F := Ideal) (m ((c : Thread nD τ).loc main_arg0)) (m ((c : Thread nD τ).loc main_arg1)))
        (m ((c : Thread nD τ).loc main_arg2)) (m ((c : Thread nD τ).loc main_arg4)) (m ((c : Thread nD τ).loc main_arg6))
        (m ((c : Thread nD τ).loc main_arg3)) (m ((c : Thread nD τ).loc main_arg5)) (m ((c : Thread nD τ).loc main_arg7)) := by
  have h0 : ((V m c (Pipeline.arrRef spec0 (0 : Fin cfg0.W))) : S100000x128.Idx → EReal) = (m ((c : Thread nD τ).loc main_arg0)) := V_main_arg0 m c
  have h1 : ((V m c (Pipeline.arrRef spec0 (1 : Fin cfg0.W))) : S100000x128.Idx → EReal)
      = Cert.ReferenceIdeal.Read.val_main_v22 (F := Ideal) (m ((c : Thread nD τ).loc main_arg0)) (m ((c : Thread nD τ).loc main_arg1)) := HostStages.meanIn m c
  have h2 : ((V m c (Pipeline.arrRef spec0 (2 : Fin cfg0.W))) : S100000x128.Idx → EReal)
      = Cert.ReferenceIdeal.Read.val_main_v45 (F := Ideal) (m ((c : Thread nD τ).loc main_arg0)) (m ((c : Thread nD τ).loc main_arg1)) := HostStages.meanOut m c
  have h3 : ((V m c (Pipeline.arrRef spec0 (3 : Fin cfg0.W))) : S128x128.Idx → EReal) = (m ((c : Thread nD τ).loc main_arg2)) := V_main_arg2 m c
  have h5 : ((V m c (Pipeline.arrRef spec0 (5 : Fin cfg0.W))) : S128x128.Idx → EReal) = (m ((c : Thread nD τ).loc main_arg4)) := V_main_arg4 m c
  have h7 : ((V m c (Pipeline.arrRef spec0 (7 : Fin cfg0.W))) : S128x128.Idx → EReal) = (m ((c : Thread nD τ).loc main_arg6)) := V_main_arg6 m c
  have h4 : ((V m c (Pipeline.arrRef spec0 (4 : Fin cfg0.W))) : S1x128.Idx → EReal) = shapeCast S1x128 (m ((c : Thread nD τ).loc main_arg3)) shapeCasts_S128_S1x128 := HostStages.biasRoot m c
  have h6 : ((V m c (Pipeline.arrRef spec0 (6 : Fin cfg0.W))) : S1x128.Idx → EReal) = shapeCast S1x128 (m ((c : Thread nD τ).loc main_arg5)) shapeCasts_S128_S1x128 := HostStages.biasIn m c
  have h8 : ((V m c (Pipeline.arrRef spec0 (8 : Fin cfg0.W))) : S1x128.Idx → EReal) = shapeCast S1x128 (m ((c : Thread nD τ).loc main_arg7)) shapeCasts_S128_S1x128 := HostStages.biasOut m c
  show Cert.Epilogue.layerRows (V m c (Pipeline.arrRef spec0 (0 : Fin cfg0.W))) (V m c (Pipeline.arrRef spec0 (1 : Fin cfg0.W))) (V m c (Pipeline.arrRef spec0 (2 : Fin cfg0.W)))
    (V m c (Pipeline.arrRef spec0 (3 : Fin cfg0.W))) (V m c (Pipeline.arrRef spec0 (5 : Fin cfg0.W))) (V m c (Pipeline.arrRef spec0 (7 : Fin cfg0.W)))
    (V m c (Pipeline.arrRef spec0 (4 : Fin cfg0.W))) (V m c (Pipeline.arrRef spec0 (6 : Fin cfg0.W))) (V m c (Pipeline.arrRef spec0 (8 : Fin cfg0.W))) = _
  exact (Cert.Epilogue.layerRows_congr h0 h1 h2 h3 h5 h7 h4 h6 h8).trans (Cert.Epilogue.layerRows_shapeCast _ _ _ _ _ _ _ _ _ _)

/-- The kernel's run, read: the result array at the layer's function of the arguments — the two mean arrays being the
    reference's own mean stages of the same arguments —, the arguments unchanged. -/
theorem run : θ_run defs (onTc (τ := τ) (main (F := Ideal))) ⟨m, fun _ => 0, ρ⟩ fun r => ∀ c : Dev nD,
      r.2.mem ((c : Thread nD τ).loc main_v45)
        = Cert.Epilogue.layer (m ((c : Thread nD τ).loc main_arg0))
            (Cert.ReferenceIdeal.Read.val_main_v22 (F := Ideal) (m ((c : Thread nD τ).loc main_arg0)) (m ((c : Thread nD τ).loc main_arg1)))
            (Cert.ReferenceIdeal.Read.val_main_v45 (F := Ideal) (m ((c : Thread nD τ).loc main_arg0)) (m ((c : Thread nD τ).loc main_arg1)))
            (m ((c : Thread nD τ).loc main_arg2)) (m ((c : Thread nD τ).loc main_arg4)) (m ((c : Thread nD τ).loc main_arg6))
            (m ((c : Thread nD τ).loc main_arg3)) (m ((c : Thread nD τ).loc main_arg5)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (result_eq m c)), (h c).2⟩)
    (Value.run_blocks m ρ)

end Cert.KernelIdeal.Whole

end
-- ==== Proof.RefLayer.lean ====
/-
  The reference's result, read one operation at a time, is the layer's function.

  After its two neighbourhood means the reference forms, for the root features and for each mean, the product with
  that branch's weight plus the bias laid along every row, and returns  (root + ½ · incoming) + ½ · outgoing.  Read
  at (p, q): each product is the sum over k of row p against column q, each bias contributes its entry q, and the
  constant is the word for ½ — the layer's expression of the arguments and of the reference's own two mean stages,
  which are left unopened.
-/
import proofs.«132252_j25829933318545_1_alg».proof.Proof.Gen.ReferenceIdeal.Read
import proofs.«132252_j25829933318545_1_alg».proof.Proof.Spec

noncomputable section

namespace Cert.ReferenceIdeal.AsLayer

open Cert.ReferenceIdeal Cert.ReferenceIdeal.Read Idealize.ShloMosaic Idealize.ShloMosaic.ValueIdx
open scoped BigOperators

/-! ## The stages' operand indices at (p, q), by coordinates -/

theorem left_root (p : Fin 100000) (q k : Fin 128) : lidx_main_v50 (ix2 p q) k = ix2 p k :=
  funext fun a => by match a with | ⟨0, _⟩ => rfl | ⟨1, _⟩ => rfl
theorem right_root (p : Fin 100000) (q k : Fin 128) : ridx_main_v50 (ix2 p q) k = ix2 k q :=
  funext fun a => by match a with | ⟨0, _⟩ => rfl | ⟨1, _⟩ => rfl
theorem left_in (p : Fin 100000) (q k : Fin 128) : lidx_main_v23 (ix2 p q) k = ix2 p k :=
  funext fun a => by match a with | ⟨0, _⟩ => rfl | ⟨1, _⟩ => rfl
theorem right_in (p : Fin 100000) (q k : Fin 128) : ridx_main_v23 (ix2 p q) k = ix2 k q :=
  funext fun a => by match a with | ⟨0, _⟩ => rfl | ⟨1, _⟩ => rfl
theorem left_out (p : Fin 100000) (q k : Fin 128) : lidx_main_v46 (ix2 p q) k = ix2 p k :=
  funext fun a => by match a with | ⟨0, _⟩ => rfl | ⟨1, _⟩ => rfl
theorem right_out (p : Fin 100000) (q k : Fin 128) : ridx_main_v46 (ix2 p q) k = ix2 k q :=
  funext fun a => by match a with | ⟨0, _⟩ => rfl | ⟨1, _⟩ => rfl
theorem bias_root (p : Fin 100000) (q : Fin 128) : idx_main_v51 (idx_main_v52 (ix2 p q)) = ix1 q :=
  funext fun a => by match a with | ⟨0, _⟩ => rfl
theorem bias_in (p : Fin 100000) (q : Fin 128) : idx_main_v24 (idx_main_v25 (ix2 p q)) = ix1 q :=
  funext fun a => by match a with | ⟨0, _⟩ => rfl
theorem bias_out (p : Fin 100000) (q : Fin 128) : idx_main_v47 (idx_main_v48 (ix2 p q)) = ix1 q :=
  funext fun a => by match a with | ⟨0, _⟩ => rfl

/-- THE REFERENCE'S LAST STAGE is the layer's function of the arguments and of its own two mean stages. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v59 (F := Ideal) x0 x1 x2 x3 x4 x5 x6 x7
      = Cert.Epilogue.layer x0 (val_main_v22 (F := Ideal) x0 x1) (val_main_v45 (F := Ideal) x0 x1) x2 x4 x6 x3 x5 x7 := by
  funext i
  obtain ⟨p, q, rfl⟩ : ∃ (p : Fin 100000) (q : Fin 128), i = ix2 p q := ⟨i 0, i 1, eq_ix2 i⟩
  rw [Cert.Epilogue.layer_apply]
  unfold Cert.Epilogue.out Cert.Epilogue.branch Cert.Epilogue.half
  simp only [val_main_v59_apply, val_main_v56_apply, val_main_v53_apply, val_main_v50_apply, val_main_v52_apply,
    val_main_v51_apply, val_main_v55_apply, val_main_v54_apply, val_main_cst_10_apply, val_main_v26_apply,
    val_main_v23_apply, val_main_v25_apply, val_main_v24_apply, val_main_v58_apply, val_main_v57_apply,
    val_main_cst_11_apply, val_main_v49_apply, val_main_v46_apply, val_main_v48_apply, val_main_v47_apply,
    left_root, right_root, left_in, right_in, left_out, right_out, bias_root, bias_in, bias_out]
  rfl

end Cert.ReferenceIdeal.AsLayer

end
-- ==== Proof.lean ====
/-
  The fused epilogue of a two-direction mean-aggregation layer against its jnp reference, at the ideal values.

  Both programs first form, on the host and with the same operations, the mean of each node's incoming neighbours'
  features and the mean of its outgoing neighbours' features. The reference then returns
      (X · W_root + b_root) + ½ · (mean_in · W_in + b_in) + ½ · (mean_out · W_out + b_out),
  added in that grouping, with whole-array products. The kernel computes the same expression 5000 rows at a time on a
  grid of twenty points: three block products into zero accumulators, each bias as one row laid along every row of
  the block, the same word for ½ and the same grouping of the additions.

  At the ideal values a change of float format is the identity and a product into a zero accumulator is the plain sum
  over the contracted axis, so the stored value at row r, column q of a block is the layer's expression of the loaded
  blocks (Proof/Payload.lean, over the expression of Proof/Spec.lean). That expression reads only row r of the feature
  blocks, which is row 5000 t + r of the arrays at point t (Proof/Locality.lean), and the twenty blocks tile the
  output, so the kernel's result array is the layer's function of the arguments and of the two mean arrays
  (Proof/Whole.lean). The mean arrays the region finds are the reference's own mean stages, by unfolding both
  (Proof/HostStages.lean), and the reference's last stage read one operation at a time is the same layer function
  (Proof/RefLayer.lean). No law of the extended reals beyond these readings is needed, and the inputs' finiteness is
  not used.
-/
import proofs.«132252_j25829933318545_1_alg».proof.Defs
import proofs.«132252_j25829933318545_1_alg».proof.Proof.Gen.Kernel
import proofs.«132252_j25829933318545_1_alg».proof.Proof.Gen.Kernel.Skeleton
import proofs.«132252_j25829933318545_1_alg».proof.Proof.Gen.Kernel.Launch
import proofs.«132252_j25829933318545_1_alg».proof.Proof.Gen.Kernel.Points
import proofs.«132252_j25829933318545_1_alg».proof.Proof.Gen.Kernel.Frame
import proofs.«132252_j25829933318545_1_alg».proof.Proof.Gen.KernelIdeal
import proofs.«132252_j25829933318545_1_alg».proof.Proof.Gen.KernelIdeal.Skeleton
import proofs.«132252_j25829933318545_1_alg».proof.Proof.Gen.KernelIdeal.Launch
import proofs.«132252_j25829933318545_1_alg».proof.Proof.Gen.KernelIdeal.Points
import proofs.«132252_j25829933318545_1_alg».proof.Proof.Gen.KernelIdeal.Frame
import proofs.«132252_j25829933318545_1_alg».proof.Proof.Gen.ReferenceIdeal
import proofs.«132252_j25829933318545_1_alg».proof.Proof.Gen.Pre_finite_inputs
import proofs.«132252_j25829933318545_1_alg».proof.Proof.Gen.KernelIdeal.Value
import proofs.«132252_j25829933318545_1_alg».proof.Proof.Gen.ReferenceIdeal.Run
import proofs.«132252_j25829933318545_1_alg».proof.Proof.Gen.ReferenceIdeal.Read
import proofs.«132252_j25829933318545_1_alg».proof.Proof.Whole
import proofs.«132252_j25829933318545_1_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the layer's function of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v59_eq, Cert.ReferenceIdeal.AsLayer.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
